-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S2048x256 .f32 .bf16
  ∧ IdealRules.truncf_extf.Statement Cert.KernelIdeal.S2048x256 .f32 .bf16
  ∧ IdealRules.truncf_extf.Statement Cert.KernelIdeal.S2048x64 .f32 .bf16
  ∧ IdealRules.truncf_extf.Statement Cert.KernelIdeal.S2048x64 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x64x4 : Shape := ⟨3, ![262144, 64, 4]⟩
abbrev S256 : Shape := ⟨1, ![256]⟩
abbrev S_ : Shape := ⟨0, ![]⟩
abbrev S256x1 : Shape := ⟨2, ![256, 1]⟩
abbrev S256x2 : Shape := ⟨2, ![256, 2]⟩
abbrev S262144x256 : Shape := ⟨2, ![262144, 256]⟩

class Facts : Prop where
  bcast_S_S262144x64x4 : S_.BroadcastsInDim S262144x64x4 (![] : Fin 0 → Fin S262144x64x4.rank)
  reducesTo_S262144x64x4_S_d0_1_2 : S262144x64x4.ReducesTo [0, 1, 2] S_
  h_S_ : 0 < S_.numel
  bcast_S_S256 : S_.BroadcastsInDim S256 (![] : Fin 0 → Fin S256.rank)
  reducesTo_S256_S_d0 : S256.ReducesTo [0] S_
  bcast_S256_S256x1_0 : S256.BroadcastsInDim S256x1 (![0] : Fin 1 → Fin S256x1.rank)
  concatenates_S256x1_S256x1_S256x2_d1 : Shape.Concatenates [S256x1, S256x1] S256x2 1
  bcast_S_S262144x256 : S_.BroadcastsInDim S262144x256 (![] : Fin 0 → Fin S262144x256.rank)
  reducesTo_S262144x256_S_d0_1 : S262144x256.ReducesTo [0, 1] S_
  gather_S262144x64x4_S256x2_S262144x256_0_12_n_n_12_1_26214411_wf : GatherDims.WF S262144x64x4 S256x2 S262144x256 [0] [1, 2] [] [1, 2] [] 1 ![262144, 1, 1]

variable [Facts]

def gather_S262144x64x4_S256x2_S262144x256_0_12_n_n_12_1_26214411 : GatherDims S262144x64x4 S256x2 S262144x256 where
  offsetDims := [0]
  collapsedSliceDims := [1, 2]
  operandBatchingDims := []
  startIndicesBatchingDims := []
  startIndexMap := [1, 2]
  indexVectorDim := 1
  sliceSizes := ![262144, 1, 1]
  wf := gather_S262144x64x4_S256x2_S262144x256_0_12_n_n_12_1_26214411_wf
def fn_part1 {F : FTy → Type} [FloatOps F] (main_arg0 : FVec F S262144x64x4 .f32) (main_arg2 : IVec S256 32) (main_v12 : IVec S_ 1) (main_v15 : IVec S_ 1) : IVec S_ 1 :=
  let main_v16 : IVec S_ 1 := andi main_v12 main_v15
  let main_c_6 : IVec S_ 32 := constantI S_ 32 0#32
  let main_v17 : IVec S256 32 := broadcastInDim S256 ![] bcast_S_S256 main_c_6
  let main_v18 : IVec S256 1 := cmpi .slt main_arg2 main_v17
  let main_c_7 : IVec S_ 32 := constantI S_ 32 64#32
  let main_v19 : IVec S256 32 := broadcastInDim S256 ![] bcast_S_S256 main_c_7
  let main_v20 : IVec S256 32 := addi main_arg2 main_v19
  let main_v21 : IVec S256 32 := select main_v18 main_v20 main_arg2
  let main_c_8 : IVec S_ 32 := constantI S_ 32 3#32
  let main_v22 : IVec S256 32 := broadcastInDim S256 ![] bcast_S_S256 main_c_8
  let main_v23 : IVec S256 32 := id main_v22
  let main_v24 : IVec S256x1 32 := broadcastInDim S256x1 ![0] bcast_S256_S256x1_0 main_v21
  let main_v25 : IVec S256x1 32 := broadcastInDim S256x1 ![0] bcast_S256_S256x1_0 main_v23
  let main_v26 : IVec S256x2 32 := (fun a b => concatenate S256x2 1 [⟨S256x1, a⟩, ⟨S256x1, b⟩] concatenates_S256x1_S256x1_S256x2_d1) main_v24 main_v25
  let main_v27 : FVec F S262144x256 .f32 := (fun x i => Host.gather gather_S262144x64x4_S256x2_S262144x256_0_12_n_n_12_1_26214411 x i) main_arg0 main_v26
  let main_cst_9 : FVec F S_ .f32 := constant S_ .f32 0x00000000#32
  let main_v28 : FVec F S262144x256 .f32 := broadcastInDim S262144x256 ![] bcast_S_S262144x256 main_cst_9
  let main_v29 : IVec S262144x256 1 := cmpf .oge main_v27 main_v28
  let main_c_10 : IVec S_ 1 := constantI S_ 1 1#1
  let main_v30 : IVec S_ 1 := (fun x v => Host.reduce IntOp.andi x v reducesTo_S262144x256_S_d0_1 h_S_) main_v29 main_c_10
  let main_v31 : IVec S_ 1 := andi main_v16 main_v30
  main_v31

def fn {F : FTy → Type} [FloatOps F] (main_arg0 : FVec F S262144x64x4 .f32) (main_arg1 : FVec F S256 .f32) (main_arg2 : IVec S256 32) : IVec S_ 1 :=
  let main_v0 : FVec F S262144x64x4 .f32 := Host.absf main_arg0
  let main_cst : FVec F S_ .f32 := constant S_ .f32 0x7F800000#32
  let main_v1 : FVec F S262144x64x4 .f32 := broadcastInDim S262144x64x4 ![] bcast_S_S262144x64x4 main_cst
  let main_v2 : IVec S262144x64x4 1 := cmpf .olt main_v0 main_v1
  let main_c : IVec S_ 1 := constantI S_ 1 1#1
  let main_v3 : IVec S_ 1 := (fun x v => Host.reduce IntOp.andi x v reducesTo_S262144x64x4_S_d0_1_2 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_c_2 : IVec S_ 32 := constantI S_ 32 0#32
  let main_v9 : IVec S256 32 := broadcastInDim S256 ![] bcast_S_S256 main_c_2
  let main_v10 : IVec S256 1 := cmpi .sge main_arg2 main_v9
  let main_c_3 : IVec S_ 1 := constantI S_ 1 1#1
  let main_v11 : IVec S_ 1 := (fun x v => Host.reduce IntOp.andi x v reducesTo_S256_S_d0 h_S_) main_v10 main_c_3
  let main_v12 : IVec S_ 1 := andi main_v8 main_v11
  let main_c_4 : IVec S_ 32 := constantI S_ 32 64#32
  let main_v13 : IVec S256 32 := broadcastInDim S256 ![] bcast_S_S256 main_c_4
  let main_v14 : IVec S256 1 := cmpi .slt main_arg2 main_v13
  let main_c_5 : IVec S_ 1 := constantI S_ 1 1#1
  let main_v15 : IVec S_ 1 := (fun x v => Host.reduce IntOp.andi x v reducesTo_S256_S_d0 h_S_) main_v14 main_c_5
  fn_part1 (F := F) main_arg0 main_arg2 main_v12 main_v15
-- ==== Kernel.lean ====
abbrev S262144x64x4 : Shape := ⟨3, ![262144, 64, 4]⟩
abbrev S256 : Shape := ⟨1, ![256]⟩
abbrev S262144x256 : Shape := ⟨2, ![262144, 256]⟩
abbrev S64 : Shape := ⟨1, ![64]⟩
abbrev S_ : Shape := ⟨0, ![]⟩
abbrev S64x1 : Shape := ⟨2, ![64, 1]⟩
abbrev S1x256 : Shape := ⟨2, ![1, 256]⟩
abbrev S64x256 : Shape := ⟨2, ![64, 256]⟩
abbrev S256x64 : Shape := ⟨2, ![256, 64]⟩
abbrev S256x1 : Shape := ⟨2, ![256, 1]⟩
abbrev S1x64 : Shape := ⟨2, ![1, 64]⟩
abbrev S2048x256 : Shape := ⟨2, ![2048, 256]⟩
abbrev S2048x64 : Shape := ⟨2, ![2048, 64]⟩
abbrev S262144x1x256 : Shape := ⟨3, ![262144, 1, 256]⟩

abbrev nBuf : Space → Nat
  | .hbm => 28
  | .vmem => 7
  | .smem => 0
  | _ => 0

abbrev bufTy : (tb : Table) → Fin (tcTables nBuf tb) → BufTy
  | .hbm, ⟨0, _⟩ => ⟨S262144x64x4, .f32⟩
  | .hbm, ⟨1, _⟩ => ⟨S256, .f32⟩
  | .hbm, ⟨2, _⟩ => ⟨S256, .i32⟩
  | .hbm, ⟨3, _⟩ => ⟨S262144x256, .f32⟩
  | .hbm, ⟨4, _⟩ => ⟨S64, .i32⟩
  | .hbm, ⟨5, _⟩ => ⟨S_, .i32⟩
  | .hbm, ⟨6, _⟩ => ⟨S64, .i32⟩
  | .hbm, ⟨7, _⟩ => ⟨S64, .i32⟩
  | .hbm, ⟨8, _⟩ => ⟨S_, .i32⟩
  | .hbm, ⟨9, _⟩ => ⟨S64, .i32⟩
  | .hbm, ⟨10, _⟩ => ⟨S64, .i32⟩
  | .hbm, ⟨11, _⟩ => ⟨S64x1, .i32⟩
  | .hbm, ⟨12, _⟩ => ⟨S1x256, .i32⟩
  | .hbm, ⟨13, _⟩ => ⟨S64x256, .i32⟩
  | .hbm, ⟨14, _⟩ => ⟨S64x256, .i32⟩
  | .hbm, ⟨15, _⟩ => ⟨S64x256, .i1⟩
  | .hbm, ⟨16, _⟩ => ⟨S64x256, .bf16⟩
  | .hbm, ⟨17, _⟩ => ⟨S256x64, .bf16⟩
  | .hbm, ⟨18, _⟩ => ⟨S256x1, .i32⟩
  | .hbm, ⟨19, _⟩ => ⟨S1x64, .i32⟩
  | .hbm, ⟨20, _⟩ => ⟨S256x64, .i32⟩
  | .hbm, ⟨21, _⟩ => ⟨S256x64, .i32⟩
  | .hbm, ⟨22, _⟩ => ⟨S256x64, .i1⟩
  | .hbm, ⟨23, _⟩ => ⟨S256x64, .bf16⟩
  | .hbm, ⟨24, _⟩ => ⟨S64x256, .bf16⟩
  | .hbm, ⟨25, _⟩ => ⟨S1x256, .f32⟩
  | .hbm, ⟨26, _⟩ => ⟨S262144x256, .f32⟩
  | .hbm, ⟨27, _⟩ => ⟨S262144x1x256, .f32⟩
  | .local _ .vmem, ⟨0, _⟩ => ⟨S2048x256, .f32⟩
  | .local _ .vmem, ⟨1, _⟩ => ⟨S2048x256, .f32⟩
  | .local _ .vmem, ⟨2, _⟩ => ⟨S1x256, .f32⟩
  | .local _ .vmem, ⟨3, _⟩ => ⟨S256x64, .bf16⟩
  | .local _ .vmem, ⟨4, _⟩ => ⟨S64x256, .bf16⟩
  | .local _ .vmem, ⟨5, _⟩ => ⟨S2048x256, .f32⟩
  | .local _ .vmem, ⟨6, _⟩ => ⟨S2048x256, .f32⟩
  | _, _ => ⟨S262144x64x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v6 : Ref sig .tc := ⟨.hbm, 16, rfl⟩
abbrev main_v7 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S262144x64x4_S262144x256 : S262144x64x4.ShapeCasts S262144x256
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  bcast_S1x256_S64x256_0_1 : S1x256.BroadcastsInDim S64x256 (![0, 1] : Fin 2 → Fin S64x256.rank)
  transposes_S64x256_S256x64_1_0 : S64x256.Transposes [1, 0] S256x64
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  bcast_S1x64_S256x64_0_1 : S1x64.BroadcastsInDim S256x64 (![0, 1] : Fin 2 → Fin S256x64.rank)
  transposes_S256x64_S64x256_1_0 : S256x64.Transposes [1, 0] S64x256
  shapeCasts_S256_S1x256 : S256.ShapeCasts S1x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  bcast_S262144x256_S262144x1x256_0_2 : S262144x256.BroadcastsInDim S262144x1x256 (![0, 2] : Fin 2 → Fin S262144x1x256.rank)
  dot_S2048x256_S256x64_S2048x64_1_0_0_1_n_n_wf : DotDims.WF S2048x256 S256x64 S2048x64 [1] [0] [0] [1] [] []
  dot_S2048x64_S64x256_S2048x256_1_0_0_1_n_n_wf : DotDims.WF S2048x64 S64x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S262144x256.size a
  hwx0_0 : ∀ i : grid0.Coords, EltTy.bits .f32 = 32 ∨ (Rect.block (s := S262144x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x256.size a
  hwx0_1 : ∀ i : grid0.Coords, EltTy.bits .f32 = 32 ∨ (Rect.block (s := S1x256) S1x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S256x64.size a
  hwx0_2 : ∀ i : grid0.Coords, EltTy.bits .bf16 = 32 ∨ (Rect.block (s := S256x64) S256x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x256.size a ≤ S64x256.size a
  hwx0_3 : ∀ i : grid0.Coords, EltTy.bits .bf16 = 32 ∨ (Rect.block (s := S64x256) S64x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S262144x256.size a
  hwx0_4 : ∀ i : grid0.Coords, EltTy.bits .f32 = 32 ∨ (Rect.block (s := S262144x256) S2048x256.size (cc0_transform_4 i) (hinb0_4 i)).WholeWords (EltTy.packing .f32)

variable [Facts₀]

def dot_S2048x256_S256x64_S2048x64_1_0_0_1_n_n : DotDims S2048x256 S256x64 S2048x64 where
  lhsContracting := [1]
  rhsContracting := [0]
  lhsNonContracting := [0]
  rhsNonContracting := [1]
  lhsBatch := []
  rhsBatch := []
  wf := dot_S2048x256_S256x64_S2048x64_1_0_0_1_n_n_wf
def dot_S2048x64_S64x256_S2048x256_1_0_0_1_n_n : DotDims S2048x64 S64x256 S2048x256 where
  lhsContracting := [1]
  rhsContracting := [0]
  lhsNonContracting := [0]
  rhsNonContracting := [1]
  lhsBatch := []
  rhsBatch := []
  wf := dot_S2048x64_S64x256_S2048x256_1_0_0_1_n_n_wf

abbrev win0_0 : Pipeline.Window sig grid0 :=
  Pipeline.Window.ofSpec (Memref.whole main_v0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S256x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S64x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S2048x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S262144x64x4 : Shape := ⟨3, ![262144, 64, 4]⟩
abbrev S256 : Shape := ⟨1, ![256]⟩
abbrev S_ : Shape := ⟨0, ![]⟩
abbrev S256x1 : Shape := ⟨2, ![256, 1]⟩
abbrev S256x2 : Shape := ⟨2, ![256, 2]⟩
abbrev S262144x256 : Shape := ⟨2, ![262144, 256]⟩
abbrev S1x256 : Shape := ⟨2, ![1, 256]⟩
abbrev S262144x1x256 : Shape := ⟨3, ![262144, 1, 256]⟩

abbrev nBuf : Space → Nat
  | .hbm => 25
  | .vmem => 0
  | .smem => 0
  | _ => 0

abbrev bufTy : (tb : Table) → Fin (tcTables nBuf tb) → BufTy
  | .hbm, ⟨0, _⟩ => ⟨S262144x64x4, .f32⟩
  | .hbm, ⟨1, _⟩ => ⟨S256, .f32⟩
  | .hbm, ⟨2, _⟩ => ⟨S256, .i32⟩
  | .hbm, ⟨3, _⟩ => ⟨S_, .i32⟩
  | .hbm, ⟨4, _⟩ => ⟨S256, .i32⟩
  | .hbm, ⟨5, _⟩ => ⟨S256, .i1⟩
  | .hbm, ⟨6, _⟩ => ⟨S_, .i32⟩
  | .hbm, ⟨7, _⟩ => ⟨S256, .i32⟩
  | .hbm, ⟨8, _⟩ => ⟨S256, .i32⟩
  | .hbm, ⟨9, _⟩ => ⟨S256, .i32⟩
  | .hbm, ⟨10, _⟩ => ⟨S_, .i32⟩
  | .hbm, ⟨11, _⟩ => ⟨S256, .i32⟩
  | .hbm, ⟨12, _⟩ => ⟨S256, .i32⟩
  | .hbm, ⟨13, _⟩ => ⟨S256x1, .i32⟩
  | .hbm, ⟨14, _⟩ => ⟨S256x1, .i32⟩
  | .hbm, ⟨15, _⟩ => ⟨S256x2, .i32⟩
  | .hbm, ⟨16, _⟩ => ⟨S262144x256, .f32⟩
  | .hbm, ⟨17, _⟩ => ⟨S262144x256, .f32⟩
  | .hbm, ⟨18, _⟩ => ⟨S256, .f32⟩
  | .hbm, ⟨19, _⟩ => ⟨S1x256, .f32⟩
  | .hbm, ⟨20, _⟩ => ⟨S1x256, .f32⟩
  | .hbm, ⟨21, _⟩ => ⟨S262144x256, .f32⟩
  | .hbm, ⟨22, _⟩ => ⟨S262144x256, .f32⟩
  | .hbm, ⟨23, _⟩ => ⟨S262144x256, .f32⟩
  | .hbm, ⟨24, _⟩ => ⟨S262144x1x256, .f32⟩
  | _, _ => ⟨S262144x64x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]

class Facts₀ : Prop where
  bcast_S_S256 : S_.BroadcastsInDim S256 (![] : Fin 0 → Fin S256.rank)
  bcast_S256_S256x1_0 : S256.BroadcastsInDim S256x1 (![0] : Fin 1 → Fin S256x1.rank)
  concatenates_S256x1_S256x1_S256x2_d1 : Shape.Concatenates [S256x1, S256x1] S256x2 1
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  bcast_S262144x256_S262144x1x256_0_2 : S262144x256.BroadcastsInDim S262144x1x256 (![0, 2] : Fin 2 → Fin S262144x1x256.rank)
  gather_S262144x64x4_S256x2_S262144x256_0_12_n_n_12_1_26214411_wf : GatherDims.WF S262144x64x4 S256x2 S262144x256 [0] [1, 2] [] [1, 2] [] 1 ![262144, 1, 1]

variable [Facts₀]

def gather_S262144x64x4_S256x2_S262144x256_0_12_n_n_12_1_26214411 : GatherDims S262144x64x4 S256x2 S262144x256 where
  offsetDims := [0]
  collapsedSliceDims := [1, 2]
  operandBatchingDims := []
  startIndicesBatchingDims := []
  startIndexMap := [1, 2]
  indexVectorDim := 1
  sliceSizes := ![262144, 1, 1]
  wf := gather_S262144x64x4_S256x2_S262144x256_0_12_n_n_12_1_26214411_wf

class Facts : Prop extends Facts₀ where

variable [Facts]
-- ==== Proof.Spec.lean ====
/-
  What both programs compute, as one function of the three argument arrays.

  For a row `n` of difference vectors and a shell `q`, the shell's centre `c(q)` is read from the integer
  array of centre indices, the squared distance of row `n` to that centre is channel 3 of the row's entry
  for the centre, and the value is `exp (−|ζ_q| · √d)` on the extended reals.
-/
import Idealize.ShloMosaic.PureOps.Ideal
import Idealize.ShloMosaic.Lib.ValueIdx

noncomputable section

namespace Cert.Shells

open Idealize.ShloMosaic Idealize.ShloMosaic.ValueIdx

/-- Difference vectors: rows × centres × channels. -/
abbrev SDiffs : Shape := ⟨3, ![262144, 64, 4]⟩
/-- One exponent, and one centre index, per shell. -/
abbrev SShell : Shape := ⟨1, ![256]⟩
/-- Rows × shells. -/
abbrev SRows : Shape := ⟨2, ![262144, 256]⟩

/-- The centre shell `q` reads: its index word, as a number below 64. (For an index word in range this is the
    word's value; the reduction modulo 64 only makes the definition total.) -/
def centre (idx : IVec SShell 32) (q : Fin 256) : Fin 64 :=
  ⟨(idx (ix1 q)).toNat % 64, Nat.mod_lt _ (by decide)⟩

/-- One shell's value from its exponent `ζ` and a squared distance `d`: `exp (−|ζ| · √d)`. -/
def shell (ζ d : EReal) : EReal := Ideal.exp (-(max ζ (-ζ)) * Ideal.sqrt d)

/-- The value at row `n`, shell `q`. -/
def shellAt (x : SDiffs.Idx → EReal) (ζ : SShell.Idx → EReal) (idx : IVec SShell 32) (n : Fin 262144) (q : Fin 256) : EReal :=
  shell (ζ (ix1 q)) (x (ix3 n (centre idx q) 3))

/-- The whole rows × shells array. -/
def shells (x : SDiffs.Idx → EReal) (ζ : SShell.Idx → EReal) (idx : IVec SShell 32) : SRows.Idx → EReal :=
  fun i => shellAt x ζ idx ⟨(i 0).val, (i 0).isLt⟩ ⟨(i 1).val, (i 1).isLt⟩

theorem shells_ix2 (x : SDiffs.Idx → EReal) (ζ : SShell.Idx → EReal) (idx : IVec SShell 32) (n : Fin 262144) (q : Fin 256) :
    shells x ζ idx (ix2 n q) = shellAt x ζ idx n q := rfl

/-- What the two programs' agreement needs of the inputs: the difference vectors are real numbers, every centre
    index lies in `[0, 64)`, and the squared distances the shells read are not negative. -/
structure Admissible (x : SDiffs.Idx → EReal) (idx : IVec SShell 32) : Prop where
  finite : ∀ i : SDiffs.Idx, ∃ r : ℝ, x i = (r : EReal)
  inRange : ∀ q : Fin 256, (idx (ix1 q)).toNat < 64
  nonneg : ∀ (n : Fin 262144) (q : Fin 256), 0 ≤ x (ix3 n (centre idx q) 3)

/-- In range, a centre index word is its centre's number. -/
theorem idx_eq_centre {idx : IVec SShell 32} (h : ∀ q : Fin 256, (idx (ix1 q)).toNat < 64) (q : Fin 256) :
    idx (ix1 q) = BitVec.ofNat 32 (centre idx q).val := by
  apply BitVec.eq_of_toNat_eq
  have := h q
  simp only [centre, BitVec.toNat_ofNat]
  omega

end Cert.Shells

end
-- ==== Proof.LibPlaneTake.lean ====
/-
  A general lemma: `stablehlo.gather` of a rank-3 operand `x : [N, C, K]` at an array of index pairs
  `idx : [M, 2]` — offset_dims [0], collapsed_slice_dims [1, 2], start_index_map [1, 2], index_vector_dim 1,
  slice_sizes [N, 1, 1] — read at `(n, q)`. This is what `x[:, idx, k]` lowers to: result element `(n, q)` is
  `x[n, idx[q, 0], idx[q, 1]]`, each of the two start indices read as a signed integer and clamped into its axis
  (`[0, C − 1]` and `[0, K − 1]`), as StableHLO's gather clamps every start index.
-/
import Idealize.ShloMosaic.Lib.ValueIdx

noncomputable section

namespace Cert.Lib.PlaneTake

open Idealize.ShloMosaic Idealize.ShloMosaic.ValueIdx

variable {α : Type}

/-- Those dimension numbers for an operand `[N, C, K]`, start indices `[M, 2]` and result `[N, M]`; their
    conditions `wf` are decided on a program's literal shapes. -/
abbrev planeDims (N C K M : Nat)
    (wf : GatherDims.WF ⟨3, ![N, C, K]⟩ ⟨2, ![M, 2]⟩ ⟨2, ![N, M]⟩ [0] [1, 2] [] [1, 2] [] 1 ![N, 1, 1]) :
    GatherDims ⟨3, ![N, C, K]⟩ ⟨2, ![M, 2]⟩ ⟨2, ![N, M]⟩ where
  offsetDims := [0]
  collapsedSliceDims := [1, 2]
  operandBatchingDims := []
  startIndicesBatchingDims := []
  startIndexMap := [1, 2]
  indexVectorDim := 1
  sliceSizes := ![N, 1, 1]
  wf := wf

/-- THE GATHER READ AT `(n, q)`: the operand at row `n`, at the two start indices `idx[q, 0]` and `idx[q, 1]`,
    each read signed and clamped into its axis. -/
theorem gather_plane_apply {N C K M w : Nat} (hC : 0 < C) (hK : 0 < K)
    (wf : GatherDims.WF ⟨3, ![N, C, K]⟩ ⟨2, ![M, 2]⟩ ⟨2, ![N, M]⟩ [0] [1, 2] [] [1, 2] [] 1 ![N, 1, 1])
    (x : (⟨3, ![N, C, K]⟩ : Shape).Idx → α) (idx : IVec ⟨2, ![M, 2]⟩ w) (n : Fin N) (q : Fin M) :
    Host.gather (planeDims N C K M wf) x idx (ix2 n q)
      = x (ix3 n ⟨min (idx (ix2 q (0 : Fin 2))).toInt.toNat (C - 1), by omega⟩
              ⟨min (idx (ix2 q (1 : Fin 2))).toInt.toNat (K - 1), by omega⟩) := by
  -- the gather reads the operand at its operand index: compare the two indices coordinate by coordinate
  unfold Host.gather
  congr 1
  funext a
  refine Fin.ext ?_
  have h0 : (0 : Fin 3) ∉ ([1, 2] : List (Fin 3)) := by decide
  have h1 : (1 : Fin 3) ∈ ([1, 2] : List (Fin 3)) := by decide
  have h2 : (2 : Fin 3) ∈ ([1, 2] : List (Fin 3)) := by decide
  match a with
  | ⟨0, _⟩ =>
    -- axis 0 is the offset axis, the one operand axis that is neither collapsed nor batching: no start index names
    -- it, and its offset coordinate is the result's coordinate on offset axis 0, that is `n`
    show (planeDims N C K M wf).start (ix2 n q) idx 0 + (planeDims N C K M wf).batchCoord (ix2 n q) 0
      + (planeDims N C K M wf).offCoord (ix2 n q) 0 = n.val
    rw [GatherDims.batchCoord_eq_zero _ _ _ List.not_mem_nil]
    unfold GatherDims.start
    rw [dif_neg h0]
    unfold GatherDims.offCoord
    rw [dif_pos (show (0 : Fin 3) ∈ (planeDims N C K M wf).sKept from List.mem_singleton.mpr rfl)]
    simp only [Nat.zero_add]
    rfl
  | ⟨1, _⟩ =>
    -- axis 1 is collapsed (offset coordinate 0) and is the first entry of the start index map: its start is
    -- component 0 of the start index of `q`, clamped into `[0, C − 1]`
    show (planeDims N C K M wf).start (ix2 n q) idx 1 + (planeDims N C K M wf).batchCoord (ix2 n q) 1
      + (planeDims N C K M wf).offCoord (ix2 n q) 1 = _
    rw [GatherDims.batchCoord_eq_zero _ _ _ List.not_mem_nil,
      GatherDims.offCoord_eq_zero _ _ _ (fun h => ((GatherDims.mem_sKept _ _).mp h).1 h1)]
    simp only [Nat.add_zero]
    unfold GatherDims.start
    rw [dif_pos (show (1 : Fin 3) ∈ (planeDims N C K M wf).startIndexMap from h1)]
    have hsi : (planeDims N C K M wf).siIdx (ix2 n q) ⟨List.idxOf (1 : Fin 3) (planeDims N C K M wf).startIndexMap,
        List.idxOf_lt_length_iff.2 h1⟩ = ix2 q (0 : Fin 2) := by
      funext b; refine Fin.ext ?_
      match b with
      | ⟨0, _⟩ => rfl
      | ⟨1, _⟩ => rfl
    rw [hsi]
    rfl
  | ⟨2, _⟩ =>
    -- axis 2 is collapsed and is the second entry of the start index map: its start is component 1 of the start
    -- index of `q`, clamped into `[0, K − 1]`
    show (planeDims N C K M wf).start (ix2 n q) idx 2 + (planeDims N C K M wf).batchCoord (ix2 n q) 2
      + (planeDims N C K M wf).offCoord (ix2 n q) 2 = _
    rw [GatherDims.batchCoord_eq_zero _ _ _ List.not_mem_nil,
      GatherDims.offCoord_eq_zero _ _ _ (fun h => ((GatherDims.mem_sKept _ _).mp h).1 h2)]
    simp only [Nat.add_zero]
    unfold GatherDims.start
    rw [dif_pos (show (2 : Fin 3) ∈ (planeDims N C K M wf).startIndexMap from h2)]
    have hsi : (planeDims N C K M wf).siIdx (ix2 n q) ⟨List.idxOf (2 : Fin 3) (planeDims N C K M wf).startIndexMap,
        List.idxOf_lt_length_iff.2 h2⟩ = ix2 q (1 : Fin 2) := by
      funext b; refine Fin.ext ?_
      match b with
      | ⟨0, _⟩ => rfl
      | ⟨1, _⟩ => rfl
    rw [hsi]
    rfl

end Cert.Lib.PlaneTake

end
-- ==== Proof.TakeChain.lean ====
/-
  The squared distances a shell reads, as both the reference and the precondition spell them: the centre index
  words are wrapped where negative (`i < 0 ↦ i + 64`), paired with the constant channel 3, and used as the start
  indices of a gather `x[:, i, 3]`. With every index word in `[0, 64)` nothing wraps and nothing is clamped: row
  `n`, shell `q` reads channel 3 of the shell's centre.
-/
import proofs.«413877_j68728066670779_3_alg».proof.Proof.Spec
import proofs.«413877_j68728066670779_3_alg».proof.Proof.LibPlaneTake
import Idealize.ShloMosaic.Lib.ValueIdx
import Idealize.ShloMosaic.Lib.Pipeline.Value
import Idealize.ShloMosaic.Lib.DynamicIndex
import Idealize.ShloMosaic.Lib.StableHlo.Predicate

noncomputable section

namespace Cert.Shells

open Idealize.ShloMosaic Idealize.ShloMosaic.ValueIdx Cert.Lib.PlaneTake

/-- The scalar shape, and the index pairs' shapes. -/
abbrev SUnit : Shape := ⟨0, ![]⟩
abbrev SCol : Shape := ⟨2, ![256, 1]⟩
abbrev SPair : Shape := ⟨2, ![256, 2]⟩

/-- The start indices: the wrapped centre index beside the constant 3. -/
def takePairs (hb0 : SUnit.BroadcastsInDim SShell (![] : Fin 0 → Fin SShell.rank))
    (hb1 : SShell.BroadcastsInDim SCol (![0] : Fin 1 → Fin SCol.rank))
    (hcat : Shape.Concatenates [SCol, SCol] SPair 1) (x2 : IVec SShell 32) : IVec SPair 32 :=
  concatenate SPair 1
    [⟨SCol, broadcastInDim SCol ![0] hb1
        (select (cmpi .slt x2 (broadcastInDim SShell ![] hb0 (constantI SUnit 32 0#32)))
          (addi x2 (broadcastInDim SShell ![] hb0 (constantI SUnit 32 64#32))) x2)⟩,
     ⟨SCol, broadcastInDim SCol ![0] hb1 (id (broadcastInDim SShell ![] hb0 (constantI SUnit 32 3#32)))⟩] hcat

/-- The gather of channel 3 at the shells' centres, read at row `n`, shell `q`, for index words in range. -/
theorem take_chain_apply {α : Type} (hb0 : SUnit.BroadcastsInDim SShell (![] : Fin 0 → Fin SShell.rank))
    (hb1 : SShell.BroadcastsInDim SCol (![0] : Fin 1 → Fin SCol.rank))
    (hcat : Shape.Concatenates [SCol, SCol] SPair 1)
    (wf : GatherDims.WF SDiffs SPair SRows [0] [1, 2] [] [1, 2] [] 1 ![262144, 1, 1])
    (x0 : SDiffs.Idx → α) (x2 : IVec SShell 32) (h : ∀ q : Fin 256, (x2 (ix1 q)).toNat < 64)
    (n : Fin 262144) (q : Fin 256) :
    Host.gather (planeDims 262144 64 4 256 wf) x0 (takePairs hb0 hb1 hcat x2) (ix2 n q)
      = x0 (ix3 n (centre x2 q) 3) := by
  -- an index word below 64 reads the same signed and unsigned, so it is not negative
  have hlt : (x2 (ix1 q)).toNat < 2 ^ 31 := by have := h q; omega
  have hint : (x2 (ix1 q)).toInt = ((x2 (ix1 q)).toNat : Int) := StableHlo.Predicate.toInt_eq_toNat_of_lt hlt
  have hnn : 0 ≤ (x2 (ix1 q)).toInt := by rw [hint]; exact Int.natCast_nonneg _
  -- column 0 of the pairs is the first piece of the concatenation: the wrapped index column at row `q`, and the wrap
  -- `i < 0 ↦ i + 64` leaves a word that is not negative alone
  have hA : takePairs hb0 hb1 hcat x2 (ix2 q (0 : Fin 2)) = x2 (ix1 q) := by
    unfold takePairs
    refine (concatenate_pair_apply_left (s₁ := SCol) (s₂ := SCol) (1 : Fin 2) _ _ hcat (ix2 q (0 : Fin 2)) rfl
      (ix2 q (0 : Fin 1)) (fun b => match b with | ⟨0, _⟩ => rfl | ⟨1, _⟩ => rfl)).trans ?_
    refine (broadcastInDim_apply _ hb1 _ (ix2 q (0 : Fin 1)) (ix1 q) (fun a => match a with
      | ⟨0, _⟩ => by show q.val = if (256 : Nat) = 1 then 0 else q.val; rw [if_neg (by decide)])).trans ?_
    exact select_slt_zero_of_nonneg x2 _ _ (ix1 q) hnn
  -- column 1 of the pairs is the second piece, read at its column 0: the constant 3
  have hB : takePairs hb0 hb1 hcat x2 (ix2 q (1 : Fin 2)) = 3#32 := by
    unfold takePairs
    refine (concatenate_pair_apply_right (s₁ := SCol) (s₂ := SCol) (1 : Fin 2) _ _ hcat (ix2 q (1 : Fin 2)) rfl rfl
      (ix2 q (0 : Fin 1)) (fun b => match b with | ⟨0, _⟩ => fun _ => rfl | ⟨1, _⟩ => fun hne => absurd rfl hne) rfl).trans ?_
    rfl
  -- the gather reads row `n` at the two clamped start indices; compare the operand indices coordinate by coordinate
  refine (gather_plane_apply (N := 262144) (C := 64) (K := 4) (M := 256) (by decide) (by decide) wf x0
    (takePairs hb0 hb1 hcat x2) n q).trans ?_
  refine congrArg x0 (funext fun a => Fin.ext ?_)
  match a with
  | ⟨0, _⟩ => rfl
  | ⟨1, _⟩ =>
    -- a word below 64 is not clamped by `min · 63` and is its own remainder modulo 64
    show min (takePairs hb0 hb1 hcat x2 (ix2 q (0 : Fin 2))).toInt.toNat (64 - 1) = (x2 (ix1 q)).toNat % 64
    rw [hA, hint, Int.toNat_natCast]
    have := h q
    omega
  | ⟨2, _⟩ =>
    -- the word 3 read signed is 3, and `min 3 3 = 3`
    show min (takePairs hb0 hb1 hcat x2 (ix2 q (1 : Fin 2))).toInt.toNat (4 - 1) = 3
    rw [hB]
    decide

end Cert.Shells

end
-- ==== Proof.PreFacts.lean ====
/-
  What the precondition says of the inputs: the difference vectors are real numbers, every centre index lies in
  `[0, 64)`, and the squared distances the shells read are not negative.
-/
import proofs.«413877_j68728066670779_3_alg».proof.Pre_finite_inputs
import proofs.«413877_j68728066670779_3_alg».proof.Proof.Gen.Pre_finite_inputs
import proofs.«413877_j68728066670779_3_alg».proof.Proof.Spec
import proofs.«413877_j68728066670779_3_alg».proof.Proof.LibPlaneTake
import proofs.«413877_j68728066670779_3_alg».proof.Proof.TakeChain
import Idealize.ShloMosaic.Lib.ValueIdx
import Idealize.ShloMosaic.Lib.Pipeline.Value
import Idealize.ShloMosaic.Lib.ReduceAll
import Idealize.ShloMosaic.Lib.StableHlo.Predicate

noncomputable section

namespace Cert.Shells

open Idealize.ShloMosaic Idealize.ShloMosaic.ValueIdx

/-- The bit pattern of the single-precision infinity is the top extended real. -/
private theorem inf_f32 : Ideal.ofBits .f32 0x7F800000#32 = ⊤ := by simp [Ideal.ofBits, Ideal.ieee]

/-- The all-zero bit pattern is the real number zero. -/
private theorem zero_f32 : Ideal.ofBits .f32 0x00000000#32 = 0 := by simp [Ideal.ofBits, Ideal.ieee]

/-- An extended real whose absolute value `max x (-x)` lies strictly below `+∞` is a real number: `⊥` and `⊤` both
    have absolute value `⊤`. -/
private theorem real_of_abs_lt_inf (x : EReal)
    (h : Ideal.cmp .olt (max x (-x)) (Ideal.ofBits .f32 0x7F800000#32) = 1#1) : ∃ r : ℝ, x = (r : EReal) := by
  rw [inf_f32] at h
  unfold Ideal.cmp at h
  rw [StableHlo.Predicate.ofBool_eq_one_iff, decide_eq_true_eq] at h
  induction x using EReal.rec with
  | bot => simp at h
  | coe r => exact ⟨r, rfl⟩
  | top => simp at h

/-- A 32-bit word that is, read signed, at least 0 and below 64 has a value below 64. -/
private theorem toNat_lt_of_signed (w : BitVec 32) (h0 : IntOp.cmpi .sge w 0#32 = 1#1)
    (h1 : IntOp.cmpi .slt w 64#32 = 1#1) : w.toNat < 64 := by
  unfold IntOp.cmpi at h0 h1
  rw [StableHlo.Predicate.ofBool_eq_one_iff] at h0 h1
  simp only [BitVec.sle, BitVec.slt, decide_eq_true_eq] at h0 h1
  have e0 : (0#32 : BitVec 32).toInt = 0 := by decide
  have e64 : (64#32 : BitVec 32).toInt = 64 := by decide
  rw [e0] at h0
  rw [e64] at h1
  rw [BitVec.toInt_eq_toNat_cond] at h0 h1
  have := w.isLt
  split at h0 <;> omega

/-- The precondition, conjunct by conjunct and element by element: every difference has a finite absolute value, every
    index word is (signed) at least 0 and below 64, and every squared distance gathered at the wrapped index words is
    at least 0. -/
private theorem pre_elements (x0 : SDiffs.Idx → EReal) (x1 : SShell.Idx → EReal) (x2 : IVec SShell 32)
    (h : Cert.Pre_finite_inputs.fn (F := Ideal) x0 x1 x2 = fun _ => 1#1) :
    (∀ i : SDiffs.Idx, Ideal.cmp .olt (max (x0 i) (-(x0 i))) (Ideal.ofBits .f32 0x7F800000#32) = 1#1)
    ∧ (∀ i : SShell.Idx, IntOp.cmpi .sge (x2 i) 0#32 = 1#1)
    ∧ (∀ i : SShell.Idx, IntOp.cmpi .slt (x2 i) 64#32 = 1#1)
    ∧ (∀ i : SRows.Idx,
        Ideal.cmp .oge
          (Host.gather (Cert.Lib.PlaneTake.planeDims 262144 64 4 256
              Cert.Pre_finite_inputs.Facts.gather_S262144x64x4_S256x2_S262144x256_0_12_n_n_12_1_26214411_wf) x0
            (takePairs Cert.Pre_finite_inputs.Facts.bcast_S_S256 Cert.Pre_finite_inputs.Facts.bcast_S256_S256x1_0
              Cert.Pre_finite_inputs.Facts.concatenates_S256x1_S256x1_S256x2_d1 x2) i)
          (Ideal.ofBits .f32 0x00000000#32) = 1#1) := by
  haveI : Subsingleton Cert.Pre_finite_inputs.S_.Idx := ⟨fun a b => funext fun d => d.elim0⟩
  have h0 : Cert.Pre_finite_inputs.fn (F := Ideal) x0 x1 x2 ix0 = 1#1 := congrFun h ix0
  dsimp only [Cert.Pre_finite_inputs.fn, Cert.Pre_finite_inputs.fn_part1, andi] at h0
  obtain ⟨h1234, h5⟩ := IntOp.andi_eq_one.1 h0
  obtain ⟨h123, h4⟩ := IntOp.andi_eq_one.1 h1234
  obtain ⟨h12, h3⟩ := IntOp.andi_eq_one.1 h123
  obtain ⟨h1, _⟩ := IntOp.andi_eq_one.1 h12
  exact ⟨fun i => Host.reduce_andi_all _ _ _ _ _ h1 i, fun i => Host.reduce_andi_all _ _ _ _ _ h3 i,
    fun i => Host.reduce_andi_all _ _ _ _ _ h4 i, fun i => Host.reduce_andi_all _ _ _ _ _ h5 i⟩

theorem admissible_of_pre (x0 : SDiffs.Idx → EReal) (x1 : SShell.Idx → EReal) (x2 : IVec SShell 32)
    (h : Cert.Pre_finite_inputs.fn (F := Ideal) x0 x1 x2 = fun _ => 1#1) : Admissible x0 x2 := by
  obtain ⟨hfin, hge, hlt, hd⟩ := pre_elements x0 x1 x2 h
  have hr : ∀ q : Fin 256, (x2 (ix1 q)).toNat < 64 := fun q => toNat_lt_of_signed _ (hge _) (hlt _)
  refine ⟨fun i => real_of_abs_lt_inf _ (hfin i), hr, fun n q => ?_⟩
  have hq := hd (ix2 n q)
  rw [take_chain_apply _ _ _ _ x0 x2 hr n q, zero_f32] at hq
  unfold Ideal.cmp at hq
  rw [StableHlo.Predicate.ofBool_eq_one_iff, decide_eq_true_eq] at hq
  exact hq

end Cert.Shells

end
-- ==== Proof.Reference.lean ====
/-
  The reference's rows × shells stage is the specification, once every centre index is in range.
-/
import proofs.«413877_j68728066670779_3_alg».proof.Proof.Gen.ReferenceIdeal.Run
import proofs.«413877_j68728066670779_3_alg».proof.Proof.Gen.ReferenceIdeal.Read
import proofs.«413877_j68728066670779_3_alg».proof.Proof.Spec
import proofs.«413877_j68728066670779_3_alg».proof.Proof.LibPlaneTake
import proofs.«413877_j68728066670779_3_alg».proof.Proof.TakeChain
import Idealize.ShloMosaic.Lib.ValueIdx
import Idealize.ShloMosaic.Lib.Pipeline.Value

noncomputable section

namespace Cert.Shells

open Idealize.ShloMosaic Idealize.ShloMosaic.ValueIdx Cert.ReferenceIdeal Cert.ReferenceIdeal.Gen

/-- The gathered squared distances: with every centre index in range, row `n`, shell `q` reads channel 3 of
    the shell's centre. -/
theorem ref_gather (x0 : S262144x64x4.Idx → EReal) (x2 : IVec S256 32) (h : ∀ q : Fin 256, (x2 (ix1 q)).toNat < 64)
    (n : Fin 262144) (q : Fin 256) :
    Cert.ReferenceIdeal.Read.val_main_v10 (F := Ideal) x0 x2 (ix2 n q) = x0 (ix3 n (centre x2 q) 3) := by
  unfold Read.val_main_v10 Read.val_main_v9 Read.val_main_v7 Read.val_main_v8 Read.val_main_v4 Read.val_main_v1
    Read.val_main_v3 Read.val_main_v0 Read.val_main_v2 Read.val_main_v6 Read.val_main_v5 Read.val_main_c
    Read.val_main_c_0 Read.val_main_c_1
  exact take_chain_apply Facts₀.bcast_S_S256 Facts₀.bcast_S256_S256x1_0 Facts₀.concatenates_S256x1_S256x1_S256x2_d1
    Facts₀.gather_S262144x64x4_S256x2_S262144x256_0_12_n_n_12_1_26214411_wf x0 x2 h n q

/-- Where the exponent of shell `q` sits in the row the reference broadcasts. -/
theorem ref_zeta_idx (n : Fin 262144) (q : Fin 256) :
    Read.idx_main_v13 (Read.idx_main_v15 (ix2 n q)) = ix1 q := by
  funext a
  match a with
  | ⟨0, _⟩ => rfl

theorem ref_eq (x0 : S262144x64x4.Idx → EReal) (x1 : S256.Idx → EReal) (x2 : IVec S256 32)
    (h : ∀ q : Fin 256, (x2 (ix1 q)).toNat < 64) :
    Cert.ReferenceIdeal.Read.val_main_v17 (F := Ideal) x0 x1 x2 = shells x0 x1 x2 := by
  funext i
  obtain ⟨n, q, rfl⟩ : ∃ (n : Fin 262144) (q : Fin 256), i = ix2 n q := ⟨i 0, i 1, eq_ix2 i⟩
  rw [Read.val_main_v17_apply, Read.val_main_v16_apply, Read.val_main_v15_apply, Read.val_main_v14_apply,
    Read.val_main_v13_apply, Read.val_main_v12_apply, Read.val_main_v11_apply, ref_gather x0 x2 h n q,
    ref_zeta_idx n q, shells_ix2]
  unfold shellAt shell
  simp only [Ideal.hostUnary_exp_def, Ideal.mulf_def, Ideal.hostNegf_def, Ideal.negf_def, Ideal.hostAbsf_def,
    Ideal.hostUnary_sqrt_def]
  rfl

end Cert.Shells

end
-- ==== Proof.Payload.lean ====
/-
  The kernel body's arithmetic at one element, on the extended reals.
-/
import proofs.«413877_j68728066670779_3_alg».proof.Proof.Gen.KernelIdeal.Skeleton
import proofs.«413877_j68728066670779_3_alg».proof.Proof.Spec
import Idealize.ShloMosaic.PureOps.Ideal.Laws
import Idealize.ShloMosaic.Lib.ValueIdx
import Idealize.ShloMosaic.Lib.Pipeline.Value

noncomputable section

namespace Cert.Shells

open Idealize.ShloMosaic Idealize.ShloMosaic.ValueIdx Cert.KernelIdeal Cert.KernelIdeal.Gen

/-! ## The two matrix products read at an element

Each product contracts one axis, so at the extended reals its entry `(p, c)` is the plain sum over that axis of the
products of the row `p` of the left factor and the column `c` of the right factor. -/

/-- Rows by channels: the entry `(p, c)` of a `[2048,256] × [256,64]` product into the zero array. -/
theorem pay_mm1_apply (lhs : FVec Ideal S2048x256 .bf16) (rhs : FVec Ideal S256x64 .bf16) (p : Fin 2048) (c : Fin 64) :
    matmul dot_S2048x256_S256x64_S2048x64_1_0_0_1_n_n none lhs rhs (constant S2048x64 .f32 0x00000000#32) (ix2 p c)
      = ∑ k : Fin 256, lhs (ix2 p k) * rhs (ix2 k c) := by
  refine (Ideal.matmul_constant_zero_apply dot_S2048x256_S256x64_S2048x64_1_0_0_1_n_n none lhs rhs (ix2 p c)).trans ?_
  rw [← Equiv.sum_comp (contrEquiv1 dot_S2048x256_S256x64_S2048x64_1_0_0_1_n_n 256 rfl rfl).symm]
  refine Finset.sum_congr rfl fun k _ => ?_
  have hl : dot_S2048x256_S256x64_S2048x64_1_0_0_1_n_n.lhsIdx (ix2 p c)
      ((contrEquiv1 dot_S2048x256_S256x64_S2048x64_1_0_0_1_n_n 256 rfl rfl).symm k) = ix2 p k := by
    funext a
    match a with
    | ⟨0, _⟩ => exact Fin.ext rfl
    | ⟨1, _⟩ => exact Fin.ext rfl
  have hr : dot_S2048x256_S256x64_S2048x64_1_0_0_1_n_n.rhsIdx (ix2 p c)
      ((contrEquiv1 dot_S2048x256_S256x64_S2048x64_1_0_0_1_n_n 256 rfl rfl).symm k) = ix2 k c := by
    funext a
    match a with
    | ⟨0, _⟩ => exact Fin.ext rfl
    | ⟨1, _⟩ => exact Fin.ext rfl
  rw [hl, hr]

/-- Rows by shells: the entry `(p, q)` of a `[2048,64] × [64,256]` product into the zero array. -/
theorem pay_mm2_apply (lhs : FVec Ideal S2048x64 .bf16) (rhs : FVec Ideal S64x256 .bf16) (p : Fin 2048) (q : Fin 256) :
    matmul dot_S2048x64_S64x256_S2048x256_1_0_0_1_n_n none lhs rhs (constant S2048x256 .f32 0x00000000#32) (ix2 p q)
      = ∑ c : Fin 64, lhs (ix2 p c) * rhs (ix2 c q) := by
  refine (Ideal.matmul_constant_zero_apply dot_S2048x64_S64x256_S2048x256_1_0_0_1_n_n none lhs rhs (ix2 p q)).trans ?_
  rw [← Equiv.sum_comp (contrEquiv1 dot_S2048x64_S64x256_S2048x256_1_0_0_1_n_n 64 rfl rfl).symm]
  refine Finset.sum_congr rfl fun k _ => ?_
  have hl : dot_S2048x64_S64x256_S2048x256_1_0_0_1_n_n.lhsIdx (ix2 p q)
      ((contrEquiv1 dot_S2048x64_S64x256_S2048x256_1_0_0_1_n_n 64 rfl rfl).symm k) = ix2 p k := by
    funext a
    match a with
    | ⟨0, _⟩ => exact Fin.ext rfl
    | ⟨1, _⟩ => exact Fin.ext rfl
  have hr : dot_S2048x64_S64x256_S2048x256_1_0_0_1_n_n.rhsIdx (ix2 p q)
      ((contrEquiv1 dot_S2048x64_S64x256_S2048x256_1_0_0_1_n_n 64 rfl rfl).symm k) = ix2 k q := by
    funext a
    match a with
    | ⟨0, _⟩ => exact Fin.ext rfl
    | ⟨1, _⟩ => exact Fin.ext rfl
  rw [hl, hr]

/-! ## Sums against a column of zeros and one one -/

/-- A sum of products whose right factors are `1` at one place and `0` elsewhere is the left factor there. -/
theorem pay_sum_mul_pick {n : Nat} (L : Fin n → EReal) (P : Fin n → Prop) [DecidablePred P] (k0 : Fin n)
    (hP : ∀ k, P k ↔ k = k0) :
    ∑ k : Fin n, L k * (if P k then (1 : EReal) else 0) = L k0 := by
  rw [Finset.sum_eq_single k0]
  · rw [if_pos ((hP k0).mpr rfl), mul_one]
  · intro k _ hk
    rw [if_neg (fun h => hk ((hP k).mp h)), mul_zero]
  · intro h; exact absurd (Finset.mem_univ k0) h

/-- A sum of products whose left factors are all `0` is `0`. -/
theorem pay_sum_zero_mul {n : Nat} (L R : Fin n → EReal) (hL : ∀ k, L k = 0) : ∑ k : Fin n, L k * R k = 0 :=
  Finset.sum_eq_zero fun k _ => by rw [hL k, zero_mul]

/-- A real number minus itself is zero on the extended reals. -/
theorem pay_coe_sub_self (r : ℝ) : (r : EReal) - (r : EReal) = 0 := by
  rw [← EReal.coe_sub, sub_self, EReal.coe_zero]

/-- The square root of the larger of a real number and zero is a real number. -/
theorem pay_sqrt_max_real (r : ℝ) : ∃ s : ℝ, Ideal.sqrt (max (r : EReal) 0) = (s : EReal) := by
  refine ⟨Real.sqrt (max r 0), ?_⟩
  have : max (r : EReal) 0 = ((max r 0 : ℝ) : EReal) := by
    rw [EReal.coe_strictMono.monotone.map_max, EReal.coe_zero]
  rw [this, Ideal.sqrt_coe, if_neg (not_lt.mpr (le_max_right r 0))]

/-! ## The three-term splitting of a matrix product

The body writes each left factor `x` as the three terms `x`, `x − x` and `(x − x) − (x − x)` (the changes of
number format in between are the identity on the extended reals), multiplies each by the table and adds the three
products. On a row of real numbers the last two terms are rows of zeros, so only the first product is left. -/

/-- The three products of a row block with the channel table, added. -/
def payTri1 (x : FVec Ideal S2048x256 .f32) (T : FVec Ideal S256x64 .bf16) : FVec Ideal S2048x64 .f32 :=
  addf (addf
    (matmul dot_S2048x256_S256x64_S2048x64_1_0_0_1_n_n none (truncf .bf16 x bitsLt_bf16_f32) T
      (constant S2048x64 .f32 0x00000000#32))
    (matmul dot_S2048x256_S256x64_S2048x64_1_0_0_1_n_n none (truncf .bf16 (subf x x) bitsLt_bf16_f32) T
      (constant S2048x64 .f32 0x00000000#32)))
    (matmul dot_S2048x256_S256x64_S2048x64_1_0_0_1_n_n none
      (truncf .bf16 (subf (subf x x) (subf x x)) bitsLt_bf16_f32) T (constant S2048x64 .f32 0x00000000#32))

/-- The three products of the square roots with the centre table, added. -/
def payTri2 (y : FVec Ideal S2048x64 .f32) (T : FVec Ideal S64x256 .bf16) : FVec Ideal S2048x256 .f32 :=
  addf (addf
    (matmul dot_S2048x64_S64x256_S2048x256_1_0_0_1_n_n none (truncf .bf16 y bitsLt_bf16_f32) T
      (constant S2048x256 .f32 0x00000000#32))
    (matmul dot_S2048x64_S64x256_S2048x256_1_0_0_1_n_n none (truncf .bf16 (subf y y) bitsLt_bf16_f32) T
      (constant S2048x256 .f32 0x00000000#32)))
    (matmul dot_S2048x64_S64x256_S2048x256_1_0_0_1_n_n none
      (truncf .bf16 (subf (subf y y) (subf y y)) bitsLt_bf16_f32) T (constant S2048x256 .f32 0x00000000#32))

/-- The body's arithmetic is: the two splittings around the clamped square root, times the negated absolute exponents
    broadcast down the rows, exponentiated. -/
theorem pay_eq (x0 : FVec Ideal S2048x256 .f32) (E : FVec Ideal S256x64 .bf16) (S : FVec Ideal S64x256 .bf16)
    (zt : FVec Ideal S1x256 .f32) :
    k0_pay1 (F := Ideal) x0 E S zt
      = exp (mulf
          (broadcastTo S2048x256
            (subf (broadcast S1x256 (Scalar.ofBits .f32 0x00000000#32))
              (absf (shapeCast S1x256 zt shapeCasts_S1x256_S1x256))) broadcasts_S1x256_S2048x256)
          (payTri2
            (sqrt (maximumf
              (payTri1 (shapeCast S2048x256 x0 shapeCasts_S2048x256_S2048x256) (shapeCast S256x64 E shapeCasts_S256x64_S256x64))
              (broadcast S2048x64 (Scalar.ofBits .f32 0x00000000#32))))
            (shapeCast S64x256 S shapeCasts_S64x256_S64x256))) := rfl

/-- Against the channel table the splitting of a row of real numbers reads the row at channel 3 of the centre. -/
theorem payTri1_apply (x : FVec Ideal S2048x256 .f32) (T : FVec Ideal S256x64 .bf16)
    (hT : ∀ (k : Fin 256) (c : Fin 64), T (ix2 k c) = ((if k.val = 4 * c.val + 3 then 1 else 0 : EReal)))
    (p : Fin 2048) (hfin : ∀ k : Fin 256, ∃ r : ℝ, x (ix2 p k) = (r : EReal)) (c : Fin 64) :
    payTri1 x T (ix2 p c) = x (ix2 p ⟨4 * c.val + 3, by have := c.isLt; omega⟩) := by
  have h0 : ∀ k : Fin 256, x (ix2 p k) - x (ix2 p k) = 0 := fun k => by
    obtain ⟨r, hr⟩ := hfin k
    rw [hr]; exact pay_coe_sub_self r
  have s1 : ∑ k : Fin 256, (truncf .bf16 x bitsLt_bf16_f32 : FVec Ideal S2048x256 .bf16) (ix2 p k) * T (ix2 k c)
      = x (ix2 p ⟨4 * c.val + 3, by have := c.isLt; omega⟩) := by
    have e : ∀ k : Fin 256, (truncf .bf16 x bitsLt_bf16_f32 : FVec Ideal S2048x256 .bf16) (ix2 p k) * T (ix2 k c)
        = x (ix2 p k) * (if k.val = 4 * c.val + 3 then (1 : EReal) else 0) := fun k => by rw [hT k c]; rfl
    rw [Finset.sum_congr rfl fun k _ => e k]
    exact pay_sum_mul_pick (fun k => x (ix2 p k)) (fun k => k.val = 4 * c.val + 3) ⟨4 * c.val + 3, by have := c.isLt; omega⟩
      (fun k => ⟨fun h => Fin.ext h, fun h => by rw [h]⟩)
  have s2 : ∑ k : Fin 256, (truncf .bf16 (subf x x) bitsLt_bf16_f32 : FVec Ideal S2048x256 .bf16) (ix2 p k) * T (ix2 k c) = 0 :=
    pay_sum_zero_mul _ _ fun k => h0 k
  have s3 : ∑ k : Fin 256,
      (truncf .bf16 (subf (subf x x) (subf x x)) bitsLt_bf16_f32 : FVec Ideal S2048x256 .bf16) (ix2 p k) * T (ix2 k c) = 0 :=
    pay_sum_zero_mul _ _ fun k => by
      show (x (ix2 p k) - x (ix2 p k)) - (x (ix2 p k) - x (ix2 p k)) = 0
      rw [h0 k, sub_zero]
  show matmul _ none _ T _ (ix2 p c) + matmul _ none _ T _ (ix2 p c) + matmul _ none _ T _ (ix2 p c) = _
  rw [pay_mm1_apply, pay_mm1_apply, pay_mm1_apply, s1, s2, s3, add_zero, add_zero]

/-- Against the centre table the splitting of a row of real numbers reads the row at the shell's centre. -/
theorem payTri2_apply (y : FVec Ideal S2048x64 .f32) (T : FVec Ideal S64x256 .bf16) (j : Fin 256 → Fin 64)
    (hT : ∀ (c : Fin 64) (q : Fin 256), T (ix2 c q) = ((if c = j q then 1 else 0 : EReal)))
    (p : Fin 2048) (hfin : ∀ c : Fin 64, ∃ r : ℝ, y (ix2 p c) = (r : EReal)) (q : Fin 256) :
    payTri2 y T (ix2 p q) = y (ix2 p (j q)) := by
  have h0 : ∀ c : Fin 64, y (ix2 p c) - y (ix2 p c) = 0 := fun c => by
    obtain ⟨r, hr⟩ := hfin c
    rw [hr]; exact pay_coe_sub_self r
  have s1 : ∑ c : Fin 64, (truncf .bf16 y bitsLt_bf16_f32 : FVec Ideal S2048x64 .bf16) (ix2 p c) * T (ix2 c q)
      = y (ix2 p (j q)) := by
    have e : ∀ c : Fin 64, (truncf .bf16 y bitsLt_bf16_f32 : FVec Ideal S2048x64 .bf16) (ix2 p c) * T (ix2 c q)
        = y (ix2 p c) * (if c = j q then (1 : EReal) else 0) := fun c => by rw [hT c q]; rfl
    rw [Finset.sum_congr rfl fun c _ => e c]
    exact pay_sum_mul_pick (fun c => y (ix2 p c)) (fun c => c = j q) (j q) (fun c => Iff.rfl)
  have s2 : ∑ c : Fin 64, (truncf .bf16 (subf y y) bitsLt_bf16_f32 : FVec Ideal S2048x64 .bf16) (ix2 p c) * T (ix2 c q) = 0 :=
    pay_sum_zero_mul _ _ fun c => h0 c
  have s3 : ∑ c : Fin 64,
      (truncf .bf16 (subf (subf y y) (subf y y)) bitsLt_bf16_f32 : FVec Ideal S2048x64 .bf16) (ix2 p c) * T (ix2 c q) = 0 :=
    pay_sum_zero_mul _ _ fun c => by
      show (y (ix2 p c) - y (ix2 p c)) - (y (ix2 p c) - y (ix2 p c)) = 0
      rw [h0 c, sub_zero]
  show matmul _ none _ T _ (ix2 p q) + matmul _ none _ T _ (ix2 p q) + matmul _ none _ T _ (ix2 p q) = _
  rw [pay_mm2_apply, pay_mm2_apply, pay_mm2_apply, s1, s2, s3, add_zero, add_zero]

/-! ## The body's arithmetic at one element -/

theorem pay_apply (x0 : FVec Ideal S2048x256 .f32) (E : FVec Ideal S256x64 .bf16) (S : FVec Ideal S64x256 .bf16)
    (zt : FVec Ideal S1x256 .f32) (j : Fin 256 → Fin 64)
    (hE : ∀ (k : Fin 256) (c : Fin 64), E (ix2 k c) = ((if k.val = 4 * c.val + 3 then 1 else 0 : EReal)))
    (hS : ∀ (c : Fin 64) (q : Fin 256), S (ix2 c q) = ((if c = j q then 1 else 0 : EReal)))
    (p : Fin 2048) (q : Fin 256)
    (hfin : ∀ k : Fin 256, ∃ r : ℝ, x0 (ix2 p k) = (r : EReal))
    (hpos : 0 ≤ x0 (ix2 p ⟨4 * (j q).val + 3, by have := (j q).isLt; omega⟩)) :
    k0_pay1 (F := Ideal) x0 E S zt (ix2 p q)
      = shell (zt (ix2 (0 : Fin 1) q)) (x0 (ix2 p ⟨4 * (j q).val + 3, by have := (j q).isLt; omega⟩)) := by
  rw [pay_eq, shapeCast_self x0, shapeCast_self E, shapeCast_self S, shapeCast_self zt]
  -- the clamped square roots, on row `p`
  have hY : ∀ c : Fin 64,
      (sqrt (maximumf (payTri1 x0 E) (broadcast S2048x64 (Scalar.ofBits .f32 0x00000000#32))) : FVec Ideal S2048x64 .f32) (ix2 p c)
        = Ideal.sqrt (max (x0 (ix2 p ⟨4 * c.val + 3, by have := c.isLt; omega⟩)) 0) := fun c => by
    show Ideal.sqrt (max (payTri1 x0 E (ix2 p c)) (Ideal.ofBits .f32 0x00000000#32)) = _
    rw [payTri1_apply x0 E hE p hfin c, Ideal.ofBits_zero_f32]
  have hYfin : ∀ c : Fin 64, ∃ s : ℝ,
      (sqrt (maximumf (payTri1 x0 E) (broadcast S2048x64 (Scalar.ofBits .f32 0x00000000#32))) : FVec Ideal S2048x64 .f32) (ix2 p c)
        = (s : EReal) := fun c => by
    obtain ⟨r, hr⟩ := hfin ⟨4 * c.val + 3, by have := c.isLt; omega⟩
    rw [hY c, hr]; exact pay_sqrt_max_real r
  unfold shell
  refine congrArg Ideal.exp ?_
  show (broadcastTo S2048x256 (subf (broadcast S1x256 (Scalar.ofBits .f32 0x00000000#32)) (absf zt))
      broadcasts_S1x256_S2048x256 : FVec Ideal S2048x256 .f32) (ix2 p q) * payTri2 _ S (ix2 p q) = _
  rw [payTri2_apply _ S j hS p hYfin q, hY (j q), max_eq_left hpos]
  refine congrArg (· * _) ?_
  refine (broadcastTo_apply _ _ (ix2 p q) (ix2 (0 : Fin 1) q) ?_).trans ?_
  · intro a
    match a with
    | ⟨0, _⟩ => rfl
    | ⟨1, _⟩ => rfl
  · show Ideal.ofBits .f32 0x00000000#32 - max (zt (ix2 (0 : Fin 1) q)) (-(zt (ix2 (0 : Fin 1) q))) = _
    rw [Ideal.ofBits_zero_f32, zero_sub]

end Cert.Shells

end
-- ==== Proof.HostPrefix.lean ====
/-
  The arrays the region finds, as the host operations before it leave them, read at an index:
  the difference vectors with centre and channel laid out along one axis of 256, the exponents as one row,
  and the two selection tables of zeros and ones the body multiplies by.
-/
import proofs.«413877_j68728066670779_3_alg».proof.Proof.Gen.KernelIdeal.Frame
import proofs.«413877_j68728066670779_3_alg».proof.Proof.Spec
import Idealize.ShloMosaic.Lib.ValueIdx
import Idealize.ShloMosaic.Lib.Pipeline.Value
import Idealize.ShloMosaic.Lib.StableHlo.Run
import Idealize.ShloMosaic.Lib.ValueLayout

noncomputable section

namespace Cert.Shells

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-! ## The host operations read at an index, for any arrays -/

section Reads

variable {α : Type}

/-- Rows of 64 centres by 4 channels laid out as rows of 256: column `k` is centre `k / 4`, channel `k % 4`,
    since both have row-major position `256 n + k`. -/
private theorem shapeCast_rows_apply {N : ℕ} (x : (⟨3, ![N, 64, 4]⟩ : Shape).Idx → α)
    (h : (⟨3, ![N, 64, 4]⟩ : Shape).ShapeCasts ⟨2, ![N, 256]⟩) (n : Fin N) (k : Fin 256) :
    shapeCast ⟨2, ![N, 256]⟩ x h (ix2 n k) = x (ix3 n ⟨k.val / 4, by omega⟩ ⟨k.val % 4, by omega⟩) :=
  shapeCast_apply x h _ _ (by
    rw [Shape.rowMajor_val_three, Shape.rowMajor_val_two]
    show (n.val * 64 + k.val / 4) * 4 + k.val % 4 = n.val * 256 + k.val
    omega)

/-- A vector made one row reads, at `(0, q)`, its entry `q`. -/
private theorem shapeCast_row_apply {a : ℕ} (x : (⟨1, ![a]⟩ : Shape).Idx → α) (h : (⟨1, ![a]⟩ : Shape).ShapeCasts ⟨2, ![1, a]⟩)
    (q : Fin a) : shapeCast ⟨2, ![1, a]⟩ x h (ix2 (0 : Fin 1) q) = x (ix1 q) :=
  shapeCast_apply x h _ _ (by
    rw [Shape.rowMajor_val_two, Shape.rowMajor_val_one]
    show q.val = 0 * a + q.val
    omega)

/-- A vector stood up as a column and copied along the rows reads, at `(p, q)`, its entry `p`. -/
private theorem bcast_col_apply {a b : ℕ} (h₁ : (⟨1, ![a]⟩ : Shape).BroadcastsInDim ⟨2, ![a, 1]⟩ ![0])
    (h₂ : (⟨2, ![a, 1]⟩ : Shape).BroadcastsInDim ⟨2, ![a, b]⟩ ![0, 1]) (v : (⟨1, ![a]⟩ : Shape).Idx → α) (p : Fin a) (q : Fin b) :
    broadcastInDim ⟨2, ![a, b]⟩ ![0, 1] h₂ (broadcastInDim ⟨2, ![a, 1]⟩ ![0] h₁ v) (ix2 p q) = v (ix1 p) := by
  have hp := p.isLt
  refine (broadcastInDim_apply _ h₂ _ (ix2 p q) (ix2 p (0 : Fin 1)) (fun c => match c with
    | ⟨0, _⟩ => ?_ | ⟨1, _⟩ => ?_)).trans (broadcastInDim_apply _ h₁ v (ix2 p (0 : Fin 1)) (ix1 p) (fun c => match c with
    | ⟨0, _⟩ => ?_))
  · show p.val = if a = 1 then 0 else p.val
    split <;> omega
  · show 0 = if (1 : ℕ) = 1 then 0 else q.val
    rw [if_pos rfl]
  · show p.val = if a = 1 then 0 else p.val
    split <;> omega

/-- The row of column numbers copied down the rows reads, at `(p, q)`, the word of `q`. -/
private theorem bcast_iota_row_apply {a b : ℕ} (h₂ : (⟨2, ![1, b]⟩ : Shape).BroadcastsInDim ⟨2, ![a, b]⟩ ![0, 1]) (p : Fin a) (q : Fin b) :
    broadcastInDim ⟨2, ![a, b]⟩ ![0, 1] h₂ (iotaInDim ⟨2, ![1, b]⟩ 32 1) (ix2 p q) = BitVec.ofNat 32 q.val := by
  have hq := q.isLt
  refine (broadcastInDim_apply _ h₂ _ (ix2 p q) (ix2 (0 : Fin 1) q) (fun c => match c with
    | ⟨0, _⟩ => ?_ | ⟨1, _⟩ => ?_)).trans rfl
  · show 0 = if (1 : ℕ) = 1 then 0 else p.val
    rw [if_pos rfl]
  · show q.val = if b = 1 then 0 else q.val
    split <;> omega

end Reads

/-- A comparison's bit as an extended real: one where the words are equal, zero elsewhere. -/
private theorem uitofp_cmpi_eq (φ : FTy) (x y : BitVec 32) :
    (FloatOps.uitofp (F := Ideal) φ (IntOp.cmpi .eq x y) : EReal) = if x = y then 1 else 0 := by
  show (((IntOp.cmpi .eq x y).toNat : ℝ) : EReal) = _
  by_cases h : x = y
  · rw [if_pos h, h]
    simp [IntOp.cmpi]
  · rw [if_neg h]
    simp [IntOp.cmpi, h]

/-- For a centre below 64 and a column below 256, the word `4 c + 3` is the word of `k` exactly when `k = 4 c + 3`:
    no product or sum here reaches `2 ^ 32`. -/
private theorem word_eq_iff (cc : Fin 64) (k : Fin 256) :
    IntOp.addi (IntOp.muli 4#32 (BitVec.ofNat 32 cc.val)) 3#32 = BitVec.ofNat 32 k.val ↔ k.val = 4 * cc.val + 3 := by
  have hc := cc.isLt
  have hk := k.isLt
  constructor
  · intro h
    have := congrArg BitVec.toNat h
    simp only [IntOp.addi, IntOp.muli, BitVec.toNat_add, BitVec.toNat_mul, BitVec.toNat_ofNat] at this
    omega
  · intro h
    apply BitVec.eq_of_toNat_eq
    simp only [IntOp.addi, IntOp.muli, BitVec.toNat_add, BitVec.toNat_mul, BitVec.toNat_ofNat]
    omega

/-! ## The arrays the region finds, as the host operations' composed terms -/

/-- The difference vectors the region finds are the launched ones laid out as rows of 256. -/
private theorem V_diffs_eq (c : Dev nD) :
    (V m c main_v0 : S262144x256.Idx → EReal)
      = shapeCast S262144x256 (m ((c : Thread nD τ).loc main_arg0) : S262144x64x4.Idx → EReal) shapeCasts_S262144x64x4_S262144x256 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results <;> rfl

/-- The exponents the region finds are the launched ones as one row. -/
private theorem V_zeta_eq (c : Dev nD) :
    (V m c main_v10 : S1x256.Idx → EReal)
      = shapeCast S1x256 (m ((c : Thread nD τ).loc main_arg1) : S256.Idx → EReal) shapeCasts_S256_S1x256 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results <;> rfl

/-- The first table: the bit of "the word `4 c + 3` equals the column's number" at `(c, k)`, as a number, transposed. -/
private theorem V_extract_eq (c : Dev nD) :
    (V m c main_v7 : S256x64.Idx → EReal)
      = transpose S256x64 [1, 0] (uitofp (F := Ideal) .bf16 (cmpi .eq
          (broadcastInDim S64x256 ![0, 1] bcast_S64x1_S64x256_0_1 (broadcastInDim S64x1 ![0] bcast_S64_S64x1_0
            (addi (muli (broadcastInDim S64 ![] bcast_S_S64 (constantI S_ 32 4#32)) (iotaInDim S64 32 0))
              (broadcastInDim S64 ![] bcast_S_S64 (constantI S_ 32 3#32)))))
          (broadcastInDim S64x256 ![0, 1] bcast_S1x256_S64x256_0_1 (iotaInDim S1x256 32 1)))) transposes_S64x256_S256x64_1_0 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results <;> rfl

/-- The second table: the bit of "shell `q`'s index word equals the column's number" at `(q, c)`, as a number, transposed. -/
private theorem V_select_eq (c : Dev nD) :
    (V m c main_v9 : S64x256.Idx → EReal)
      = transpose S64x256 [1, 0] (uitofp (F := Ideal) .bf16 (cmpi .eq
          (broadcastInDim S256x64 ![0, 1] bcast_S256x1_S256x64_0_1 (broadcastInDim S256x1 ![0] bcast_S256_S256x1_0
            (m ((c : Thread nD τ).loc main_arg2) : S256.Idx → BitVec 32)))
          (broadcastInDim S256x64 ![0, 1] bcast_S1x64_S256x64_0_1 (iotaInDim S1x64 32 1)))) transposes_S256x64_S64x256_1_0 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results <;> rfl

/-- The reshaped difference vectors: column `k` of row `n` is centre `k / 4`, channel `k % 4`. -/
theorem V_diffs (c : Dev nD) (n : Fin 262144) (k : Fin 256) :
    (V m c main_v0 : S262144x256.Idx → EReal) (ix2 n k)
      = (m ((c : Thread nD τ).loc main_arg0) : S262144x64x4.Idx → EReal) (ix3 n ⟨k.val / 4, by omega⟩ ⟨k.val % 4, by omega⟩) := by
  rw [V_diffs_eq]
  exact shapeCast_rows_apply _ _ n k

/-- The exponents as one row. -/
theorem V_zeta (c : Dev nD) (q : Fin 256) :
    (V m c main_v10 : S1x256.Idx → EReal) (ix2 (0 : Fin 1) q) = (m ((c : Thread nD τ).loc main_arg1) : S256.Idx → EReal) (ix1 q) := by
  rw [V_zeta_eq]
  exact shapeCast_row_apply _ _ q

/-- The table that picks channel 3 of each centre: one where `k = 4 c + 3`, zero elsewhere. -/
theorem V_extract (c : Dev nD) (k : Fin 256) (cc : Fin 64) :
    (V m c main_v7 : S256x64.Idx → EReal) (ix2 k cc) = (if k.val = 4 * cc.val + 3 then 1 else 0 : EReal) := by
  rw [V_extract_eq]
  refine (transpose_ix2_apply _ _ k cc).trans ?_
  show FloatOps.uitofp (F := Ideal) .bf16 (IntOp.cmpi .eq _ _) = _
  rw [bcast_col_apply, bcast_iota_row_apply, uitofp_cmpi_eq]
  exact if_congr (word_eq_iff cc k) rfl rfl

/-- The table that hands each shell its centre: one where the shell's index word is the centre's number, zero elsewhere. -/
theorem V_select (c : Dev nD) (cc : Fin 64) (q : Fin 256) :
    (V m c main_v9 : S64x256.Idx → EReal) (ix2 cc q)
      = (if (m ((c : Thread nD τ).loc main_arg2) : S256.Idx → BitVec 32) (ix1 q) = BitVec.ofNat 32 cc.val then 1 else 0 : EReal) := by
  rw [V_select_eq]
  refine (transpose_ix2_apply _ _ cc q).trans ?_
  show FloatOps.uitofp (F := Ideal) .bf16 (IntOp.cmpi .eq _ _) = _
  rw [bcast_col_apply, bcast_iota_row_apply, uitofp_cmpi_eq]

end Cert.Shells

end
-- ==== Proof.Blocks.lean ====
/-
  From the body's value at one element to the whole result array.

  Grid point `t` handles rows `2048 t … 2048 t + 2047`: it reads those rows of the laid-out difference vectors, the
  row of exponents and the two selection tables whole, and writes back those rows of the result. The 128 points'
  row blocks tile the rows × shells array, so after the region it holds the specification, and the host's last
  operation only inserts a unit axis.
-/
import proofs.«413877_j68728066670779_3_alg».proof.Proof.Gen.KernelIdeal.Frame
import proofs.«413877_j68728066670779_3_alg».proof.Proof.Spec
import proofs.«413877_j68728066670779_3_alg».proof.Proof.Payload
import proofs.«413877_j68728066670779_3_alg».proof.Proof.HostPrefix
import Idealize.ShloMosaic.Lib.Pipeline.Value
import Idealize.ShloMosaic.Lib.StableHlo.Run
import Idealize.ShloMosaic.Lib.Tactic

noncomputable section

namespace Cert.Shells

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the row windows (difference vectors in, result out) move one block of
    2048 rows per point; the exponents and the two tables are one block each. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The four input blocks at point `t`, at their literal types. -/
abbrev blkX (c : Dev nD) (t : Fin cfg0.N) : FVec Ideal S2048x256 .f32 := iblk m c 0 t
abbrev blkZ (c : Dev nD) (t : Fin cfg0.N) : FVec Ideal S1x256 .f32 := iblk m c 1 t
abbrev blkE (c : Dev nD) (t : Fin cfg0.N) : FVec Ideal S256x64 .bf16 := iblk m c 2 t
abbrev blkS (c : Dev nD) (t : Fin cfg0.N) : FVec Ideal S64x256 .bf16 := iblk m c 3 t

theorem row_lt (t : Fin cfg0.N) (p : Fin 2048) : 2048 * t.val + p.val < 262144 := by
  have hN : cfg0.N = 128 := N_0
  have := t.isLt
  have := p.isLt
  omega

/-- Row `p` of point `t`'s block of difference vectors is row `2048 t + p` of the laid-out array. -/
theorem blkX_apply (c : Dev nD) (t : Fin cfg0.N) (p : Fin 2048) (k : Fin 256) :
    blkX m c t (ix2 p k) = (V m c main_v0 : S262144x256.Idx → EReal) (ix2 ⟨2048 * t.val + p.val, row_lt t p⟩ k) := by
  obtain ⟨e0, e1, -⟩ := idx_facts t
  unfold blkX iblk
  rw [View.read_apply]
  show (V m c main_v0 : S262144x256.Idx → EReal) _ = (V m c main_v0 : S262144x256.Idx → EReal) _
  congr 1
  funext a
  apply Fin.ext
  match a with
  | ⟨0, _⟩ => show win0_0.index t (0 : Fin 2) * 2048 + 1 * p.val = 2048 * t.val + p.val; rw [e0]; omega
  | ⟨1, _⟩ => show win0_0.index t (1 : Fin 2) * 256 + 1 * k.val = k.val; rw [e1]; omega

/-- The exponents' block is the whole row. -/
theorem blkZ_apply (c : Dev nD) (t : Fin cfg0.N) (q : Fin 256) :
    blkZ m c t (ix2 (0 : Fin 1) q) = (V m c main_v10 : S1x256.Idx → EReal) (ix2 (0 : Fin 1) q) := by
  obtain ⟨-, -, e0, e1, -⟩ := idx_facts t
  unfold blkZ iblk
  rw [View.read_apply]
  show (V m c main_v10 : S1x256.Idx → EReal) _ = (V m c main_v10 : S1x256.Idx → EReal) _
  congr 1
  funext a
  apply Fin.ext
  match a with
  | ⟨0, _⟩ => show win0_1.index t (0 : Fin 2) * 1 + 1 * 0 = 0; rw [e0]
  | ⟨1, _⟩ => show win0_1.index t (1 : Fin 2) * 256 + 1 * q.val = q.val; rw [e1]; omega

/-- The channel table's block is the whole table. -/
theorem blkE_apply (c : Dev nD) (t : Fin cfg0.N) (k : Fin 256) (cc : Fin 64) :
    blkE m c t (ix2 k cc) = (V m c main_v7 : S256x64.Idx → EReal) (ix2 k cc) := by
  obtain ⟨-, -, -, -, e0, e1, -⟩ := idx_facts t
  unfold blkE iblk
  rw [View.read_apply]
  show (V m c main_v7 : S256x64.Idx → EReal) _ = (V m c main_v7 : S256x64.Idx → EReal) _
  congr 1
  funext a
  apply Fin.ext
  match a with
  | ⟨0, _⟩ => show win0_2.index t (0 : Fin 2) * 256 + 1 * k.val = k.val; rw [e0]; omega
  | ⟨1, _⟩ => show win0_2.index t (1 : Fin 2) * 64 + 1 * cc.val = cc.val; rw [e1]; omega

/-- The centre table's block is the whole table. -/
theorem blkS_apply (c : Dev nD) (t : Fin cfg0.N) (cc : Fin 64) (q : Fin 256) :
    blkS m c t (ix2 cc q) = (V m c main_v9 : S64x256.Idx → EReal) (ix2 cc q) := by
  obtain ⟨-, -, -, -, -, -, e0, e1, -⟩ := idx_facts t
  unfold blkS iblk
  rw [View.read_apply]
  show (V m c main_v9 : S64x256.Idx → EReal) _ = (V m c main_v9 : S64x256.Idx → EReal) _
  congr 1
  funext a
  apply Fin.ext
  match a with
  | ⟨0, _⟩ => show win0_3.index t (0 : Fin 2) * 64 + 1 * cc.val = cc.val; rw [e0]; omega
  | ⟨1, _⟩ => show win0_3.index t (1 : Fin 2) * 256 + 1 * q.val = q.val; rw [e1]; omega

/-- Numbers below 64 are equal as 32-bit words only if equal. -/
theorem ofNat_eq_iff (a b : Nat) (ha : a < 64) (hb : b < 64) : BitVec.ofNat 32 a = BitVec.ofNat 32 b ↔ a = b := by
  constructor
  · intro h
    have := congrArg BitVec.toNat h
    simp only [BitVec.toNat_ofNat] at this
    omega
  · rintro rfl; rfl

/-- Column `4 c + 3` of the laid-out array is centre `c`, channel 3. -/
theorem chan3_idx (n : Fin 262144) (cc : Fin 64) (h1 : (4 * cc.val + 3) / 4 < 64) (h2 : (4 * cc.val + 3) % 4 < 4) :
    (ix3 n ⟨(4 * cc.val + 3) / 4, h1⟩ ⟨(4 * cc.val + 3) % 4, h2⟩ : SDiffs.Idx) = ix3 n cc 3 := by
  have a : (4 * cc.val + 3) / 4 = cc.val := by omega
  have b : (4 * cc.val + 3) % 4 = 3 := by omega
  funext d
  match d with
  | ⟨0, _⟩ => rfl
  | ⟨1, _⟩ => exact Fin.ext a
  | ⟨2, _⟩ => exact Fin.ext b

theorem col_lt (cc : Fin 64) : 4 * cc.val + 3 < 256 := by have := cc.isLt; omega

/-- The laid-out array at row `n`, column `4 c + 3`. -/
theorem V_diffs_chan3 (c : Dev nD) (n : Fin 262144) (cc : Fin 64) :
    (V m c main_v0 : S262144x256.Idx → EReal) (ix2 n ⟨4 * cc.val + 3, col_lt cc⟩)
      = (m ((c : Thread nD τ).loc main_arg0) : S262144x64x4.Idx → EReal) (ix3 n cc 3) :=
  (V_diffs m c n ⟨4 * cc.val + 3, col_lt cc⟩).trans
    (congrArg (m ((c : Thread nD τ).loc main_arg0) : S262144x64x4.Idx → EReal) (chan3_idx n cc _ _))

/-- WHAT POINT `t` WRITES BACK is its block of rows of the specification. -/
theorem flushed_eq (c : Dev nD)
    (h : Admissible (m ((c : Thread nD τ).loc main_arg0)) (m ((c : Thread nD τ).loc main_arg2))) (t : Fin cfg0.N) :
    (dats m 0 c).flushed 4 t = ((cfg0.win 4).blk t).view.read (Elt Ideal)
      (shells (m ((c : Thread nD τ).loc main_arg0)) (m ((c : Thread nD τ).loc main_arg1)) (m ((c : Thread nD τ).loc main_arg2))) := by
  show (cfg0.win 4).cut (grid0.coords t) ((dats m 0 c).after 4 t) = _
  rw [after0_4]
  unfold out0_4
  rw [View.canon_unit_zero hz]
  simp only [View.ld_unit_zero (S := S2048x256) hz, View.ld_unit_zero (S := S256x64) hz,
    View.ld_unit_zero (S := S64x256) hz, View.ld_unit_zero (S := S1x256) hz]
  funext y
  obtain ⟨p, q, rfl⟩ : ∃ (p : Fin 2048) (q : Fin 256), y = ix2 p q := ⟨y 0, y 1, eq_ix2 y⟩
  show k0_pay1 (F := Ideal) (blkX m c t) (blkE m c t) (blkS m c t) (blkZ m c t) (ix2 p q)
    = shells (m ((c : Thread nD τ).loc main_arg0)) (m ((c : Thread nD τ).loc main_arg1)) (m ((c : Thread nD τ).loc main_arg2))
        (((cfg0.win 4).blk t).view.emb (ix2 p q))
  have hemb : ((cfg0.win 4).blk t).view.emb (ix2 p q) = (ix2 ⟨2048 * t.val + p.val, row_lt t p⟩ q : S262144x256.Idx) := by
    obtain ⟨-, -, -, -, -, -, -, -, e0, e1⟩ := idx_facts t
    funext a
    apply Fin.ext
    match a with
    | ⟨0, _⟩ => show win0_4.index t (0 : Fin 2) * 2048 + 1 * p.val = 2048 * t.val + p.val; rw [e0]; omega
    | ⟨1, _⟩ => show win0_4.index t (1 : Fin 2) * 256 + 1 * q.val = q.val; rw [e1]; omega
  rw [hemb, shells_ix2]
  refine (pay_apply (blkX m c t) (blkE m c t) (blkS m c t) (blkZ m c t) (centre (m ((c : Thread nD τ).loc main_arg2)))
    ?_ ?_ p q ?_ ?_).trans ?_
  · intro k cc
    rw [blkE_apply, V_extract]
  · intro cc q'
    rw [blkS_apply, V_select, idx_eq_centre h.inRange q']
    by_cases hcq : cc = centre (m ((c : Thread nD τ).loc main_arg2)) q'
    · rw [if_pos hcq, if_pos (by rw [hcq])]
    · rw [if_neg hcq, if_neg (fun e => hcq (Fin.ext
        ((ofNat_eq_iff _ _ (centre (m ((c : Thread nD τ).loc main_arg2)) q').isLt cc.isLt).mp e).symm))]
  · intro k
    rw [blkX_apply, V_diffs]
    exact h.finite _
  · rw [blkX_apply]
    exact (V_diffs_chan3 m c _ _).symm ▸ h.nonneg ⟨2048 * t.val + p.val, row_lt t p⟩ q
  · unfold shellAt
    rw [blkZ_apply, V_zeta, blkX_apply]
    exact congrArg (shell _) (V_diffs_chan3 m c _ _)

/-- Every index of the rows × shells array lies in the block of the point that handles its row. -/
theorem cover (i : S262144x256.Idx) :
    ∃ t : Fin cfg0.N, (cfg0.win 4).flush t = true ∧ i ∈ ((cfg0.win 4).blk t).view.set := by
  have hN : cfg0.N = 128 := N_0
  have hi0 : (i 0).val < 262144 := (i 0).isLt
  have hi1 : (i 1).val < 256 := (i 1).isLt
  have ht : (i 0).val / 2048 < cfg0.N := by omega
  obtain ⟨-, -, -, -, -, -, -, -, e0, e1⟩ := idx_facts ⟨(i 0).val / 2048, ht⟩
  refine ⟨⟨(i 0).val / 2048, ht⟩, flush0_4 _, ?_⟩
  show i ∈ ((View.whole main_v11).slice (win0_4.rect ⟨(i 0).val / 2048, ht⟩)).set
  rw [View.set_slice_whole, Rect.mem_set_unit]
  intro a
  match a with
  | ⟨0, _⟩ =>
    show win0_4.index ⟨(i 0).val / 2048, ht⟩ (0 : Fin 2) * 2048 ≤ (i 0).val
      ∧ (i 0).val < win0_4.index ⟨(i 0).val / 2048, ht⟩ (0 : Fin 2) * 2048 + 2048
    rw [e0]
    show (i 0).val / 2048 * 2048 ≤ (i 0).val ∧ (i 0).val < (i 0).val / 2048 * 2048 + 2048
    omega
  | ⟨1, _⟩ =>
    show win0_4.index ⟨(i 0).val / 2048, ht⟩ (1 : Fin 2) * 256 ≤ (i 1).val
      ∧ (i 1).val < win0_4.index ⟨(i 0).val / 2048, ht⟩ (1 : Fin 2) * 256 + 256
    rw [e1]
    omega

/-- The rows × shells array after the region. -/
theorem final (c : Dev nD)
    (h : Admissible (m ((c : Thread nD τ).loc main_arg0)) (m ((c : Thread nD τ).loc main_arg2))) :
    (dats m 0 c).arrAt 4 cfg0.N
      = shells (m ((c : Thread nD τ).loc main_arg0)) (m ((c : Thread nD τ).loc main_arg1)) (m ((c : Thread nD τ).loc main_arg2)) :=
  (dats m 0 c).arrAt_eq_of_cover 4
    (shells (m ((c : Thread nD τ).loc main_arg0)) (m ((c : Thread nD τ).loc main_arg1)) (m ((c : Thread nD τ).loc main_arg2)))
    (fun t _ => flushed_eq m c h t) cover

/-- The host's last operation inserts a unit axis into what the region left. -/
theorem tail_eq (c : Dev nD)
    (h : Admissible (m ((c : Thread nD τ).loc main_arg0)) (m ((c : Thread nD τ).loc main_arg2))) :
    Pipeline.afterTail₀ cfgs (dats m) 0 (V0 m) [hostOps1] c main_v12
      = broadcastInDim S262144x1x256 ![0, 2] Cert.KernelIdeal.Facts₀.bcast_S262144x256_S262144x1x256_0_2
          (shells (m ((c : Thread nD τ).loc main_arg0)) (m ((c : Thread nD τ).loc main_arg1)) (m ((c : Thread nD τ).loc main_arg2))) := by
  unfold Pipeline.afterTail₀
  show StableHlo.after hostOps1 _ (Proc.devRef .tc main_v12) = _
  after_results
  exact congrArg (broadcastInDim S262144x1x256 ![0, 2] Cert.KernelIdeal.Facts₀.bcast_S262144x256_S262144x1x256_0_2)
    ((Pipeline.withArrays_arr spec0 launch0.win.arr_inj c (V0 m c) (fun w => (dats m 0 c).arrAt w cfg0.N) 4).trans (final m c h))

/-- The kernel's run, read: the result is the specification with a unit axis inserted, the arguments unchanged. -/
theorem run (h : ∀ c : Dev nD, Admissible (m ((c : Thread nD τ).loc main_arg0)) (m ((c : Thread nD τ).loc main_arg2))) :
    θ_run defs (onTc (τ := τ) (main (F := Ideal))) ⟨m, fun _ => 0, ρ⟩ fun r => ∀ c : Dev nD,
      r.2.mem ((c : Thread nD τ).loc main_v12)
        = broadcastInDim S262144x1x256 ![0, 2] Cert.KernelIdeal.Facts₀.bcast_S262144x256_S262144x1x256_0_2
            (shells (m ((c : Thread nD τ).loc main_arg0)) (m ((c : Thread nD τ).loc main_arg1)) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r hr c =>
    ⟨((hr c).2 main_v12 (Pipeline.mem_restRefs_of main_v12 (by decide) (by decide))).trans (tail_eq m c (h c)),
     ((hr c).2 main_arg0 (Pipeline.mem_restRefs_of main_arg0 (by decide) (by decide))).trans (W_main_arg0 m (dats m) c),
     ((hr c).2 main_arg1 (Pipeline.mem_restRefs_of main_arg1 (by decide) (by decide))).trans (W_main_arg1 m (dats m) c),
     ((hr c).2 main_arg2 (Pipeline.mem_restRefs_of main_arg2 (by decide) (by decide))).trans (W_main_arg2 m (dats m) c)⟩)
    (run_main m ρ)

end Cert.Shells

end
-- ==== Proof.lean ====
/-
  The kernel computes, for every row `n` of difference vectors and every shell `q`, `exp (−|ζ_q| · √d)` where `d` is
  the squared distance (channel 3) of row `n` to the shell's centre. It does so with two products by tables of
  zeros and ones — one that picks channel 3 of every centre, one that hands each shell its centre's value — each
  operand split into three terms `x`, `x − x`, `(x − x) − (x − x)`; on the extended reals the second and third terms
  vanish for a real number `x`, a product by a table of zeros and ones with one one per column picks an entry, and
  the clamp `max (·, 0)` before the square root is the identity on a squared distance that is not negative. The
  reference gathers the same entry and applies the same functions. Both end by inserting a unit axis.
-/
import proofs.«413877_j68728066670779_3_alg».proof.Defs
import proofs.«413877_j68728066670779_3_alg».proof.Proof.Gen.Kernel
import proofs.«413877_j68728066670779_3_alg».proof.Proof.Gen.Kernel.Skeleton
import proofs.«413877_j68728066670779_3_alg».proof.Proof.Gen.Kernel.Launch
import proofs.«413877_j68728066670779_3_alg».proof.Proof.Gen.Kernel.Points
import proofs.«413877_j68728066670779_3_alg».proof.Proof.Gen.Kernel.Frame
import proofs.«413877_j68728066670779_3_alg».proof.Proof.Gen.KernelIdeal
import proofs.«413877_j68728066670779_3_alg».proof.Proof.Gen.KernelIdeal.Skeleton
import proofs.«413877_j68728066670779_3_alg».proof.Proof.Gen.KernelIdeal.Launch
import proofs.«413877_j68728066670779_3_alg».proof.Proof.Gen.KernelIdeal.Points
import proofs.«413877_j68728066670779_3_alg».proof.Proof.Gen.KernelIdeal.Frame
import proofs.«413877_j68728066670779_3_alg».proof.Proof.Gen.ReferenceIdeal
import proofs.«413877_j68728066670779_3_alg».proof.Proof.Gen.ReferenceIdeal.Run
import proofs.«413877_j68728066670779_3_alg».proof.Proof.Gen.ReferenceIdeal.Read
import proofs.«413877_j68728066670779_3_alg».proof.Proof.Gen.Pre_finite_inputs
import proofs.«413877_j68728066670779_3_alg».proof.Proof.Spec
import proofs.«413877_j68728066670779_3_alg».proof.Proof.PreFacts
import proofs.«413877_j68728066670779_3_alg».proof.Proof.Reference
import proofs.«413877_j68728066670779_3_alg».proof.Proof.Blocks
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The four rewrites of the ideal pass: a value narrowed to bf16 and widened back is the value. -/
theorem preserves : Cert.preserves_Kernel_KernelIdeal :=
  ⟨IdealRules.truncf_extf.statement _ _ _, IdealRules.truncf_extf.statement _ _ _,
   IdealRules.truncf_extf.statement _ _ _, IdealRules.truncf_extf.statement _ _ _⟩

/-- Both programs end at the specification with a unit axis inserted. -/
theorem algebraic : Cert.algebraic_KernelIdeal_ReferenceIdeal := by
  intro m ρ m' ρ' hpre hagree
  have hadm : ∀ c : Dev Cert.KernelIdeal.nD, Cert.Shells.Admissible
      (m ((c : Thread Cert.KernelIdeal.nD Cert.KernelIdeal.τ).loc Cert.KernelIdeal.main_arg0))
      (m ((c : Thread Cert.KernelIdeal.nD Cert.KernelIdeal.τ).loc Cert.KernelIdeal.main_arg2)) :=
    fun c => Cert.Shells.admissible_of_pre _ _ _ (hpre c)
  refine ⟨_, Cert.Shells.run m ρ hadm, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq]
  unfold Cert.ReferenceIdeal.Read.val_main_v18
  rw [(hagree c).1, (hagree c).2.1, (hagree c).2.2, Cert.Shells.ref_eq _ _ _ (hadm c).inRange]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
